-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x64x64 : Shape := ⟨4, ![4, 4, 64, 64]⟩
abbrev S_ : Shape := ⟨0, ![]⟩

class Facts : Prop where
  bcast_S_S4x4x64x64 : S_.BroadcastsInDim S4x4x64x64 (![] : Fin 0 → Fin S4x4x64x64.rank)
  reducesTo_S4x4x64x64_S_d0_1_2_3 : S4x4x64x64.ReducesTo [0, 1, 2, 3] S_
  h_S_ : 0 < S_.numel

variable [Facts]

def fn {F : FTy → Type} [FloatOps F] (main_arg0 : FVec F S4x4x64x64 .f32) (main_arg1 : FVec F S4x4x64x64 .f32) : IVec S_ 1 :=
  let main_v0 : FVec F S4x4x64x64 .f32 := Host.absf main_arg0
  let main_cst : FVec F S_ .f32 := constant S_ .f32 0x7F800000#32
  let main_v1 : FVec F S4x4x64x64 .f32 := broadcastInDim S4x4x64x64 ![] bcast_S_S4x4x64x64 main_cst
  let main_v2 : IVec S4x4x64x64 1 := cmpf .olt main_v0 main_v1
  let main_c : IVec S_ 1 := constantI S_ 1 1#1
  let main_v3 : IVec S_ 1 := (fun x v => Host.reduce IntOp.andi x v reducesTo_S4x4x64x64_S_d0_1_2_3 h_S_) main_v2 main_c
  let main_v4 : FVec F S4x4x64x64 .f32 := Host.absf main_arg1
  let main_cst_0 : FVec F S_ .f32 := constant S_ .f32 0x7F800000#32
  let main_v5 : FVec F S4x4x64x64 .f32 := broadcastInDim S4x4x64x64 ![] bcast_S_S4x4x64x64 main_cst_0
  let main_v6 : IVec S4x4x64x64 1 := cmpf .olt main_v4 main_v5
  let main_c_1 : IVec S_ 1 := constantI S_ 1 1#1
  let main_v7 : IVec S_ 1 := (fun x v => Host.reduce IntOp.andi x v reducesTo_S4x4x64x64_S_d0_1_2_3 h_S_) main_v6 main_c_1
  let main_v8 : IVec S_ 1 := andi main_v3 main_v7
  main_v8
-- ==== Kernel.lean ====
abbrev S4x4x64x64 : Shape := ⟨4, ![4, 4, 64, 64]⟩
abbrev S4x4x4096 : Shape := ⟨3, ![4, 4, 4096]⟩
abbrev S_ : Shape := ⟨0, ![]⟩
abbrev S4x4096 : Shape := ⟨2, ![4, 4096]⟩
abbrev S4x1x4096 : Shape := ⟨3, ![4, 1, 4096]⟩
abbrev S4x1x1 : Shape := ⟨3, ![4, 1, 1]⟩
abbrev S1x4x4096 : Shape := ⟨3, ![1, 4, 4096]⟩
abbrev S1x1x1 : Shape := ⟨3, ![1, 1, 1]⟩
abbrev S1x4x512 : Shape := ⟨3, ![1, 4, 512]⟩
abbrev S4x512 : Shape := ⟨2, ![4, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 29
  | .vmem => 6
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x4096, .f32⟩
  | .hbm, ⟨3, _⟩ => ⟨S4x4x4096, .f32⟩
  | .hbm, ⟨4, _⟩ => ⟨S4x4x4096, .f32⟩
  | .hbm, ⟨5, _⟩ => ⟨S_, .f32⟩
  | .hbm, ⟨6, _⟩ => ⟨S4x4096, .f32⟩
  | .hbm, ⟨7, _⟩ => ⟨S4x1x4096, .f32⟩
  | .hbm, ⟨8, _⟩ => ⟨S4x1x4096, .f32⟩
  | .hbm, ⟨9, _⟩ => ⟨S_, .f32⟩
  | .hbm, ⟨10, _⟩ => ⟨S4x1x4096, .f32⟩
  | .hbm, ⟨11, _⟩ => ⟨S4x1x4096, .f32⟩
  | .hbm, ⟨12, _⟩ => ⟨S4x4x4096, .f32⟩
  | .hbm, ⟨13, _⟩ => ⟨S4x4x4096, .f32⟩
  | .hbm, ⟨14, _⟩ => ⟨S4x4x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x4x4096, .f32⟩
  | .hbm, ⟨23, _⟩ => ⟨S4x4x4096, .f32⟩
  | .hbm, ⟨24, _⟩ => ⟨S4x1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1x4x4096, .f32⟩
  | .local _ .vmem, ⟨1, _⟩ => ⟨S1x4x4096, .f32⟩
  | .local _ .vmem, ⟨2, _⟩ => ⟨S1x4x4096, .f32⟩
  | .local _ .vmem, ⟨3, _⟩ => ⟨S1x4x4096, .f32⟩
  | .local _ .vmem, ⟨4, _⟩ => ⟨S1x1x1, .f32⟩
  | .local _ .vmem, ⟨5, _⟩ => ⟨S1x1x1, .f32⟩
  | _, _ => ⟨S4x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_mult2 (i : grid0.Coords) : BitVec 32 :=
  let arg2 : BitVec 32 := BitVec.ofNat 32 (i 2).val
  let c512_i32_2 : BitVec 32 := 512#32
  let v7 : BitVec 32 := Scalar.muli arg2 c512_i32_2
  v7
def k0_off1 (i : grid0.Coords) : Fin 3 → Nat :=
  let c0 : Index := 0#32
  let c0_3 : Index := 0#32
  let arg1 : BitVec 32 := BitVec.ofNat 32 (i 1).val
  let c512_i32 : BitVec 32 := 512#32
  let v5 : BitVec 32 := Scalar.muli arg1 c512_i32
  let v6 : BitVec 32 := v5
  let v9 : Index := Scalar.indexCast v6
  ![0, 0, v9.toNat]
def k0_off2 (i : grid0.Coords) : Fin 3 → Nat :=
  let c0_4 : Index := 0#32
  let c0_5 : Index := 0#32
  let arg2 : BitVec 32 := BitVec.ofNat 32 (i 2).val
  let c512_i32_2 : BitVec 32 := 512#32
  let v7 : BitVec 32 := Scalar.muli arg2 c512_i32_2
  let v8 : BitVec 32 := v7
  let v12 : Index := Scalar.indexCast v8
  ![0, 0, v12.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  shapeCasts_S4x4x64x64_S4x4x4096 : S4x4x64x64.ShapeCasts S4x4x4096
  reducesTo_S4x4x4096_S4x4096_d1 : S4x4x4096.ReducesTo [1] S4x4096
  h_S_ : 0 < S_.numel
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x4x4096_0_1_2 : S4x1x4096.BroadcastsInDim S4x4x4096 (![0, 1, 2] : Fin 3 → Fin S4x4x4096.rank)
  inb_S1x1x1_S1x1x1_0_0_0 : ∀ a, (![0, 0, 0] : Fin 3 → Nat) a + S1x1x1.size a ≤ S1x1x1.size a
  h_S1x1x1 : 0 < S1x1x1.numel
  h_S1x4x512 : 0 < S1x4x512.numel
  shapeCasts_S1x4x512_S4x512 : S1x4x512.ShapeCasts S4x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  reducesTo_S4x1x1_S_d0_1_2 : S4x1x1.ReducesTo [0, 1, 2] S_
  dot_S4x512_S4x512_S512x512_0_0_1_1_n_n_wf : DotDims.WF S4x512 S4x512 S512x512 [0] [0] [1] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S1x4x512.size a ≤ S1x4x4096.size a
  k0_off2_inb : ∀ i : grid0.Coords, ∀ a, (k0_off2 i) a + S1x4x512.size a ≤ S1x4x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x4096.size a ≤ S4x4x4096.size a
  hwx0_0 : ∀ i : grid0.Coords, EltTy.bits .f32 = 32 ∨ (Rect.block (s := S4x4x4096) S1x4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x4096.size a ≤ S4x4x4096.size a
  hwx0_1 : ∀ i : grid0.Coords, EltTy.bits .f32 = 32 ∨ (Rect.block (s := S4x4x4096) S1x4x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

def dot_S4x512_S4x512_S512x512_0_0_1_1_n_n : DotDims S4x512 S4x512 S512x512 where
  lhsContracting := [0]
  rhsContracting := [0]
  lhsNonContracting := [1]
  rhsNonContracting := [1]
  lhsBatch := []
  rhsBatch := []
  wf := dot_S4x512_S4x512_S512x512_0_0_1_1_n_n_wf

abbrev win0_0 : Pipeline.Window sig grid0 :=
  Pipeline.Window.ofSpec (Memref.whole main_v9) S1x4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x4x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4x64x64 : Shape := ⟨4, ![4, 4, 64, 64]⟩
abbrev S4x4x4096 : Shape := ⟨3, ![4, 4, 4096]⟩
abbrev S_ : Shape := ⟨0, ![]⟩
abbrev S4x4096 : Shape := ⟨2, ![4, 4096]⟩
abbrev S4x1x4096 : Shape := ⟨3, ![4, 1, 4096]⟩
abbrev S4x4096x4096 : Shape := ⟨3, ![4, 4096, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x4096, .f32⟩
  | .hbm, ⟨3, _⟩ => ⟨S4x4x4096, .f32⟩
  | .hbm, ⟨4, _⟩ => ⟨S_, .f32⟩
  | .hbm, ⟨5, _⟩ => ⟨S4x4096, .f32⟩
  | .hbm, ⟨6, _⟩ => ⟨S4x1x4096, .f32⟩
  | .hbm, ⟨7, _⟩ => ⟨S4x1x4096, .f32⟩
  | .hbm, ⟨8, _⟩ => ⟨S_, .f32⟩
  | .hbm, ⟨9, _⟩ => ⟨S4x1x4096, .f32⟩
  | .hbm, ⟨10, _⟩ => ⟨S4x1x4096, .f32⟩
  | .hbm, ⟨11, _⟩ => ⟨S4x4x4096, .f32⟩
  | .hbm, ⟨12, _⟩ => ⟨S4x4x4096, .f32⟩
  | .hbm, ⟨13, _⟩ => ⟨S4x4x4096, .f32⟩
  | .hbm, ⟨14, _⟩ => ⟨S4x4x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x4x4096, .f32⟩
  | .hbm, ⟨23, _⟩ => ⟨S4x4x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  shapeCasts_S4x4x64x64_S4x4x4096 : S4x4x64x64.ShapeCasts S4x4x4096
  reducesTo_S4x4x4096_S4x4096_d1 : S4x4x4096.ReducesTo [1] S4x4096
  h_S_ : 0 < S_.numel
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x4x4096_0_1_2 : S4x1x4096.BroadcastsInDim S4x4x4096 (![0, 1, 2] : Fin 3 → Fin S4x4x4096.rank)
  reducesTo_S4x4096x4096_S_d0_1_2 : S4x4096x4096.ReducesTo [0, 1, 2] S_
  dot_S4x4x4096_S4x4x4096_S4x4096x4096_1_1_2_2_0_0_wf : DotDims.WF S4x4x4096 S4x4x4096 S4x4096x4096 [1] [1] [2] [2] [0] [0]

variable [Facts₀]

def dot_S4x4x4096_S4x4x4096_S4x4096x4096_1_1_2_2_0_0 : DotDims S4x4x4096 S4x4x4096 S4x4096x4096 where
  lhsContracting := [1]
  rhsContracting := [1]
  lhsNonContracting := [2]
  rhsNonContracting := [2]
  lhsBatch := [0]
  rhsBatch := [0]
  wf := dot_S4x4x4096_S4x4x4096_S4x4096x4096_1_1_2_2_0_0_wf

class Facts : Prop extends Facts₀ where

variable [Facts]
-- ==== Proof.TilePieces.lean ====
/-
  What the body leaves in the output's 1 × 1 × 1 staging block, in each of its two cases, as its one payload applied
  to what it loads: the two 512-column strips (rows of the tile, columns of the tile) of each staged input block,
  and the block's running value — the value the point before left, or, at the first tile of a batch, the zero the
  body has just stored there and reads back.
-/
import proofs.«106116_j5145370820963_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.GramValue

open Cert.KernelIdeal Cert.KernelIdeal.Gen

variable {F : FTy → Type} [FloatOps F]

theorem zero_off : (![0, 0, 0] : Fin 3 → Nat) = fun _ => 0 := funext fun a => by fin_cases a <;> rfl

/-- The strip of 512 columns a point loads for the ROWS of its tile (columns `512 · i₁ …` of the staged block). -/
abbrev rowStrip (i : grid0.Coords) (x : Vec F S1x4x4096 .f32) : Vec F S1x4x512 .f32 :=
  View.ld x (Rect.unit (s := S1x4x4096) (k0_off1 i) S1x4x512.size (k0_off1_inb i))
/-- The strip it loads for the COLUMNS of its tile (columns `512 · i₂ …`). -/
abbrev colStrip (i : grid0.Coords) (x : Vec F S1x4x4096 .f32) : Vec F S1x4x512 .f32 :=
  View.ld x (Rect.unit (s := S1x4x4096) (k0_off2 i) S1x4x512.size (k0_off2_inb i))

/-- A later tile of a batch: the payload over the strips and the value `xo` the point before left. -/
theorem later_tile (c : Dev nD) (i : grid0.Coords) (a3 : Memref sig .tc .vmem S1x4x4096 .f32) (h3 : a3.IsWhole)
    (a4 : Memref sig .tc .vmem S1x4x4096 .f32) (h4 : a4.IsWhole) (a5 : Memref sig .tc .vmem S1x1x1 .f32) (h5 : a5.IsWhole)
    (hc : ¬cond0_0 i) (x0 x1 : Vec F S1x4x4096 .f32) (xo : Vec F S1x1x1 .f32) :
    out0_B_2 c i a3 h3 a4 h4 a5 h5 hc x0 x1 xo
      = k0_pay2 (rowStrip i x0) (colStrip i x0) (rowStrip i x1) (colStrip i x1) xo := by
  unfold out0_B_2
  rw [View.read_writes_eq_canon _ _ _ (cover0_B_2 c i a3 h3 a4 h4 a5 h5 hc x0 x1 xo)]
  unfold kernelRun0_B
  dsimp only
  sl_unfold_words
  rw [View.canon_unit_zero zero_off]
  simp only [View.readAt_eq_ld, h3.read_unread, h4.read_unread, h5.read_unread, View.ld_unit_zero (S := S1x1x1) zero_off]
  rfl

/-- The first tile of a batch: the body stores the zero block, reads it back, and the payload adds the tile to it. -/
theorem first_tile (c : Dev nD) (i : grid0.Coords) (a3 : Memref sig .tc .vmem S1x4x4096 .f32) (h3 : a3.IsWhole)
    (a4 : Memref sig .tc .vmem S1x4x4096 .f32) (h4 : a4.IsWhole) (a5 : Memref sig .tc .vmem S1x1x1 .f32) (h5 : a5.IsWhole)
    (hc : cond0_0 i) (x0 x1 : Vec F S1x4x4096 .f32) :
    out0_A_2 c i a3 h3 a4 h4 a5 h5 hc x0 x1
      = k0_pay2 (rowStrip i x0) (colStrip i x0) (rowStrip i x1) (colStrip i x1) (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x1x1) zero_off, View.readCov_unit_zero (S := S1x1x1) _ zero_off]
  simp only [View.readAt_eq_ld, h3.read_unread, h4.read_unread]
  rfl

end Cert.KernelIdeal.GramValue

end
-- ==== Proof.TilePayload.lean ====
/-
  The body's arithmetic at an index, over the extended reals.

  The body loads two 512-column strips of each normalized array (the tile's rows `u`, `us` and its columns `w`, `ws`,
  each 1 × 4 × 512, channel-major), forms the two 512 × 512 Gram tiles `uᵀ w` and `usᵀ ws` by contracting the four
  channels, squares their difference, sums the tile along its columns and then along its rows, and adds the total
  to the running value `acc` of the 1 × 1 × 1 output block. Read exactly, that is
  `acc + ∑ᵣ ∑ₗ (∑ₖ u k r · w k l − ∑ₖ us k r · ws k l)²`.
-/
import proofs.«106116_j5145370820963_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.GramValue

open Cert.KernelIdeal Cert.KernelIdeal.Gen

/-! ## The channel contraction: which operand entries meet in entry `(r, l)` of a Gram tile -/

theorem lhs_chan (i : S512x512.Idx) (q : dot_S4x512_S4x512_S512x512_0_0_1_1_n_n.contr.Idx) :
    (dot_S4x512_S4x512_S512x512_0_0_1_1_n_n.lhsIdx i q 0).val = (q ⟨0, by decide⟩).val :=
  dot_S4x512_S4x512_S512x512_0_0_1_1_n_n.lhsIdx_val_of_single rfl i q
theorem lhs_pos (i : S512x512.Idx) (q : dot_S4x512_S4x512_S512x512_0_0_1_1_n_n.contr.Idx) :
    (dot_S4x512_S4x512_S512x512_0_0_1_1_n_n.lhsIdx i q 1).val = (i 0).val := by
  unfold DotDims.lhsIdx
  rw [dif_neg (show ¬(1 : Fin S4x512.rank) ∈ dot_S4x512_S4x512_S512x512_0_0_1_1_n_n.lhsBatch by decide), dif_pos (show (1 : Fin S4x512.rank) ∈ dot_S4x512_S4x512_S512x512_0_0_1_1_n_n.lhsNonContracting by decide)]
  rfl
theorem rhs_chan (i : S512x512.Idx) (q : dot_S4x512_S4x512_S512x512_0_0_1_1_n_n.contr.Idx) :
    (dot_S4x512_S4x512_S512x512_0_0_1_1_n_n.rhsIdx i q 0).val = (q ⟨0, by decide⟩).val :=
  dot_S4x512_S4x512_S512x512_0_0_1_1_n_n.rhsIdx_val_of_single rfl i q
theorem rhs_pos (i : S512x512.Idx) (q : dot_S4x512_S4x512_S512x512_0_0_1_1_n_n.contr.Idx) :
    (dot_S4x512_S4x512_S512x512_0_0_1_1_n_n.rhsIdx i q 1).val = (i 1).val := by
  unfold DotDims.rhsIdx
  rw [dif_neg (show ¬(1 : Fin S4x512.rank) ∈ dot_S4x512_S4x512_S512x512_0_0_1_1_n_n.rhsBatch by decide), dif_pos (show (1 : Fin S4x512.rank) ∈ dot_S4x512_S4x512_S512x512_0_0_1_1_n_n.rhsNonContracting by decide)]
  rfl

/-- Entry `(r, l)` of the product of a 4 × 512 strip's transpose with another strip, into a zero accumulator: the sum
    over the four channels of the products of the strips' entries at columns `r` and `l`. -/
theorem gram_entry (u w : FVec Ideal S4x512 .f32) (r l : Fin 512) :
    matmul dot_S4x512_S4x512_S512x512_0_0_1_1_n_n (some .fp32) u w (constant S512x512 .f32 0x00000000#32) (ix2 r l)
      = ∑ k : Fin 4, u (ix2 k r) * w (ix2 k l) := by
  simp only [matmul]
  rw [Ideal.matmul_constant_zero_apply, ← Equiv.sum_comp (contrEquiv1 dot_S4x512_S4x512_S512x512_0_0_1_1_n_n 4 rfl rfl).symm]
  refine Finset.sum_congr rfl fun k _ => ?_
  have hk := contrEquiv1_symm_val dot_S4x512_S4x512_S512x512_0_0_1_1_n_n 4 rfl rfl k
  have el : dot_S4x512_S4x512_S512x512_0_0_1_1_n_n.lhsIdx (ix2 r l) ((contrEquiv1 dot_S4x512_S4x512_S512x512_0_0_1_1_n_n 4 rfl rfl).symm k) = ix2 k r := funext fun a => Fin.ext (by
    match a with
    | ⟨0, _⟩ => exact (lhs_chan _ _).trans hk
    | ⟨1, _⟩ => exact lhs_pos _ _)
  have er : dot_S4x512_S4x512_S512x512_0_0_1_1_n_n.rhsIdx (ix2 r l) ((contrEquiv1 dot_S4x512_S4x512_S512x512_0_0_1_1_n_n 4 rfl rfl).symm k) = ix2 k l := funext fun a => Fin.ext (by
    match a with
    | ⟨0, _⟩ => exact (rhs_chan _ _).trans hk
    | ⟨1, _⟩ => exact rhs_pos _ _)
  rw [el, er]

/-! ## The two reductions of the squared tile -/

/-- Summing a 512 × 512 tile along its columns leaves, at row `r`, the sum of that row. -/
theorem row_sums (v : FVec Ideal S512x512 .f32) (hacc : (0x00000000#32 : BitVec 32) = 0x00000000#32) (r : Fin 512) :
    multiReduction .add [1] S512 v 0x00000000#32 reduces_S512x512_S512 (.inl rfl) hacc (ix1 r) = ∑ l : Fin 512, v (ix2 r l) := by
  refine (Ideal.multiReduction_add_single v 0x00000000#32 reduces_S512x512_S512 (.inl rfl) hacc (ix1 r)).trans ?_
  refine Finset.sum_congr rfl fun l _ => congrArg v ?_
  funext a
  match a with
  | ⟨0, _⟩ => rfl
  | ⟨1, _⟩ => rfl

/-- Summing a 512 × 1 column along its rows leaves the sum of its entries. -/
theorem col_sum (v : FVec Ideal S512x1 .f32) (hacc : (0x00000000#32 : BitVec 32) = 0x00000000#32) (y : S1.Idx) :
    multiReduction .add [0] S1 v 0x00000000#32 reduces_S512x1_S1 (.inl rfl) hacc y = ∑ r : Fin 512, v (ix2 r 0) := by
  have h0 : (y 0).val < 1 := (y 0).isLt
  obtain rfl : y = ix1 0 := (eq_ix1 y).trans (congrArg ix1 (Fin.ext (by show (y 0).val = 0; omega)))
  refine (Ideal.multiReduction_add_single v 0x00000000#32 reduces_S512x1_S1 (.inl rfl) hacc (ix1 0)).trans ?_
  refine Finset.sum_congr rfl fun r _ => congrArg v ?_
  funext a
  match a with
  | ⟨0, _⟩ => rfl
  | ⟨1, _⟩ => rfl

/-- A vector of 512 entries laid out as a 512 × 1 column keeps its entries. -/
theorem as_column (v : FVec Ideal S512 .f32) (r : Fin 512) :
    shapeCast S512x1 v shapeCasts_S512_S512x1 (ix2 r 0) = v (ix1 r) :=
  shapeCast_apply v shapeCasts_S512_S512x1 _ _ (by
    rw [Shape.rowMajor_val_one, Shape.rowMajor_val_two]
    show r.val = r.val * 1 + 0
    omega)

/-- A one-entry vector laid out as a 1 × 1 × 1 block (through 1 × 1) keeps its entry. -/
theorem as_block (v : FVec Ideal S1 .f32) (y : S1x1x1.Idx) :
    shapeCast S1x1x1 (shapeCast S1x1 v shapeCasts_S1_S1x1) shapeCasts_S1x1_S1x1x1 y = v (ix1 0) := by
  have h0 : (y 0).val < 1 := (y 0).isLt
  have h1 : (y 1).val < 1 := (y 1).isLt
  have h2 : (y 2).val < 1 := (y 2).isLt
  refine (shapeCast_apply _ shapeCasts_S1x1_S1x1x1 y (ix2 0 0) (by
    rw [Shape.rowMajor_val_two, Shape.rowMajor_val_three]
    show 0 * 1 + 0 = ((y 0).val * 1 + (y 1).val) * 1 + (y 2).val
    omega)).trans ?_
  exact shapeCast_apply v shapeCasts_S1_S1x1 (ix2 0 0) (ix1 0) (by
    rw [Shape.rowMajor_val_one, Shape.rowMajor_val_two]
    show 0 = 0 * 1 + 0
    omega)

/-! ## The payload -/

/-- The body's stored value: the running value plus the tile's sum of squared Gram differences. -/
theorem tile_payload (u w us ws : FVec Ideal S1x4x512 .f32) (acc : FVec Ideal S1x1x1 .f32) (y : S1x1x1.Idx) :
    k0_pay2 (F := Ideal) u w us ws acc y
      = acc y + ∑ r : Fin 512, ∑ l : Fin 512,
          ((∑ k : Fin 4, u (ix3 0 k r) * w (ix3 0 k l)) - (∑ k : Fin 4, us (ix3 0 k r) * ws (ix3 0 k l)))
          * ((∑ k : Fin 4, u (ix3 0 k r) * w (ix3 0 k l)) - (∑ k : Fin 4, us (ix3 0 k r) * ws (ix3 0 k l))) := by
  unfold k0_pay2
  refine (addf_apply _ _ y).trans ?_
  refine congrArg₂ (· + ·) (congrFun (shapeCast_self acc shapeCasts_S1x1x1_S1x1x1) y) ?_
  refine (as_block _ y).trans ?_
  refine (col_sum _ rfl (ix1 0)).trans ?_
  refine Finset.sum_congr rfl fun r _ => ?_
  refine (as_column _ r).trans ?_
  refine (row_sums _ rfl r).trans ?_
  refine Finset.sum_congr rfl fun l _ => ?_
  refine (mulf_apply _ _ (ix2 r l)).trans ?_
  have e : ∀ (a b : FVec Ideal S1x4x512 .f32),
      matmul dot_S4x512_S4x512_S512x512_0_0_1_1_n_n (some .fp32) (shapeCast S4x512 a shapeCasts_S1x4x512_S4x512)
        (shapeCast S4x512 b shapeCasts_S1x4x512_S4x512) (constant S512x512 .f32 0x00000000#32) (ix2 r l)
        = ∑ k : Fin 4, a (ix3 0 k r) * b (ix3 0 k l) := fun a b => by
    refine (gram_entry _ _ r l).trans (Finset.sum_congr rfl fun k _ => ?_)
    rw [shapeCast_1ab_ab_apply, shapeCast_1ab_ab_apply]
  have d : subf (matmul dot_S4x512_S4x512_S512x512_0_0_1_1_n_n (some .fp32) (shapeCast S4x512 u shapeCasts_S1x4x512_S4x512)
        (shapeCast S4x512 w shapeCasts_S1x4x512_S4x512) (constant S512x512 .f32 0x00000000#32))
      (matmul dot_S4x512_S4x512_S512x512_0_0_1_1_n_n (some .fp32) (shapeCast S4x512 us shapeCasts_S1x4x512_S4x512)
        (shapeCast S4x512 ws shapeCasts_S1x4x512_S4x512) (constant S512x512 .f32 0x00000000#32)) (ix2 r l)
      = (∑ k : Fin 4, u (ix3 0 k r) * w (ix3 0 k l)) - (∑ k : Fin 4, us (ix3 0 k r) * ws (ix3 0 k l)) :=
    (subf_apply _ _ (ix2 r l)).trans (congrArg₂ (· - ·) (e u w) (e us ws))
  exact congrArg₂ (· * ·) d d

end Cert.KernelIdeal.GramValue

end
-- ==== Proof.GramTiles.lean ====
/-
  The arithmetic of the squared Frobenius distance between two Gram matrices, tile by tile.

  For channel-major arrays `zp zs : batch × channel × position` (4 × 4 × 4096) put
  `gdiff b n m = (∑ₖ zp b k n · zp b k m − ∑ₖ zs b k n · zs b k m)²`, the squared difference of the two Gram
  matrices' entries at positions `(n, m)` of batch `b`. Cutting the 4096 × 4096 positions into an 8 × 8 board of
  512 × 512 tiles, the sum of `gdiff b` over all positions is the sum over the board of each tile's own sum, and
  walking the board row by row — step `s` of 64 is tile `(s / 8, s % 8)` — a running total over the 64 steps ends
  at that sum. Over the extended reals addition is commutative and associative, so none of this needs finiteness.
-/
import Idealize.ShloMosaic.Lib.ValueIdx

noncomputable section

open scoped BigOperators
open Idealize.ShloMosaic Idealize.ShloMosaic.ValueIdx

namespace Cert.GramTiles

/-! ## Sums over index sets given by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Position `r` of block `i`, blocks of length `B`, lies below `A · B` when there are `A` blocks. -/
theorem block_pos_lt {A B i r : ℕ} (hi : i < A) (hr : r < B) : B * i + r < A * B :=
  calc B * i + r < B * i + B := by omega
    _ = (i + 1) * B := by ring
    _ ≤ A * B := Nat.mul_le_mul_right B hi

/-- A sum over `N = A · B` positions, block by block: `A` blocks of `B` consecutive positions. -/
theorem sum_by_blocks {M : Type*} [AddCommMonoid M] (A B N : ℕ) (h : A * B = N) (g : Fin N → M) :
    ∑ n : Fin N, g n = ∑ i : Fin A, ∑ r : Fin B, g ⟨B * i.val + r.val, h ▸ block_pos_lt i.isLt r.isLt⟩ := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  omega

/-! ## The Gram difference and its tiles -/

variable (zp zs : Fin 4 → Fin 4 → Fin 4096 → EReal)

/-- The squared difference of the two Gram matrices' entries at positions `(n, m)` of batch `b`. -/
def gdiff (b : Fin 4) (n m : Fin 4096) : EReal :=
  ((∑ k : Fin 4, zp b k n * zp b k m) - (∑ k : Fin 4, zs b k n * zs b k m))
    * ((∑ k : Fin 4, zp b k n * zp b k m) - (∑ k : Fin 4, zs b k n * zs b k m))

/-- Tile `(i, j)` of the board: rows `512 i …`, columns `512 j …`, its entries summed row by row. -/
def tile (b : Fin 4) (i j : Fin 8) : EReal :=
  ∑ r : Fin 512, ∑ l : Fin 512,
    gdiff zp zs b ⟨512 * i.val + r.val, block_pos_lt (A := 8) i.isLt r.isLt⟩ ⟨512 * j.val + l.val, block_pos_lt (A := 8) j.isLt l.isLt⟩

/-- The tiles of a batch add up to the sum over all its position pairs. -/
theorem sum_tiles (b : Fin 4) :
    ∑ i : Fin 8, ∑ j : Fin 8, tile zp zs b i j = ∑ n : Fin 4096, ∑ m : Fin 4096, gdiff zp zs b n m := by
  rw [sum_by_blocks 8 512 4096 rfl]
  refine Finset.sum_congr rfl fun i _ => ?_
  unfold tile
  rw [Finset.sum_comm]
  refine Finset.sum_congr rfl fun r _ => ?_
  rw [sum_by_blocks 8 512 4096 rfl]

/-- What grid step `t` (of 256 = 4 batches × 64 tiles, batch-major, the board row by row) adds: its tile's sum. -/
def step (t : ℕ) : EReal :=
  tile zp zs ⟨t / 64 % 4, Nat.mod_lt _ (by decide)⟩ ⟨t / 8 % 8, Nat.mod_lt _ (by decide)⟩ ⟨t % 8, Nat.mod_lt _ (by decide)⟩

/-- The 64 steps of batch `b` add up to the sum over all its position pairs. -/
theorem sum_steps (b : Fin 4) :
    ∑ s ∈ Finset.range 64, step zp zs (64 * b.val + s) = ∑ n : Fin 4096, ∑ m : Fin 4096, gdiff zp zs b n m := by
  rw [← sum_tiles, Finset.sum_range, sum_by_blocks 8 8 64 rfl]
  refine Finset.sum_congr rfl fun i _ => Finset.sum_congr rfl fun j _ => ?_
  unfold step
  have hb := b.isLt; have hi := i.isLt; have hj := j.isLt
  congr 1 <;> apply Fin.ext <;> show _ = _ <;> dsimp only <;> omega

end Cert.GramTiles

end
-- ==== Proof.TileRunning.lean ====
/-
  The running value of the output block, point by point, and the array the region leaves.

  The grid has 256 points, batch-major: point `t` works on batch `t / 64` and on tile `(t / 8 % 8, t % 8)` of the
  8 × 8 board. Both staged input blocks at `t` are batch `t / 64` of the two normalized arrays, so the strips the
  body loads are columns `512 · (t / 8 % 8) …` and `512 · (t % 8) …` of that batch, and what the point adds to the
  output block is the tile's sum of squared Gram differences (`GramTiles.step`). The block is reset at the first
  point of each batch and written back after its last, so entry `b` of the 4 × 1 × 1 result array ends at the sum of
  the 64 steps of batch `b`.
-/
import proofs.«106116_j5145370820963_1_alg».proof.Proof.TilePieces
import proofs.«106116_j5145370820963_1_alg».proof.Proof.TilePayload
import proofs.«106116_j5145370820963_1_alg».proof.Proof.GramTiles

noncomputable section

open scoped BigOperators
open Idealize.ShloMosaic Idealize.ShloMosaic.TcCoe Idealize.SL.Sem Idealize.ShloMosaic.ValueIdx
open Idealize.ShloMosaic.Pipeline (Dat)

namespace Cert.KernelIdeal.GramValue

open Cert.KernelIdeal Cert.KernelIdeal.Gen Cert.GramTiles

variable (m : (ℓ : Loc nD τ sig) → Buf (Elt Ideal) ℓ)

/-! ## The normalized arrays as the region finds them, and their staged blocks -/

/-- The normalized prediction array (4 × 4 × 4096) at the region's entry, and the normalized source array. -/
abbrev zpArr (c : Dev nD) : FVec Ideal S4x4x4096 .f32 := V m c main_v9
abbrev zsArr (c : Dev nD) : FVec Ideal S4x4x4096 .f32 := V m c main_v17
/-- Their blocks staged at point `t`. -/
abbrev zpBlk (c : Dev nD) (t : Fin cfg0.N) : FVec Ideal S1x4x4096 .f32 := iblk m c 0 t
abbrev zsBlk (c : Dev nD) (t : Fin cfg0.N) : FVec Ideal S1x4x4096 .f32 := iblk m c 1 t
/-- The same arrays by coordinates (batch, channel, position). -/
def zp (c : Dev nD) : Fin 4 → Fin 4 → Fin 4096 → EReal := fun b k n => zpArr m c (ix3 b k n)
def zs (c : Dev nD) : Fin 4 → Fin 4 → Fin 4096 → EReal := fun b k n => zsArr m c (ix3 b k n)

/-- Where the grid's points are and which block each window stages there, decided over the 256 points. -/
theorem point_facts : ∀ t : Fin cfg0.N,
    (grid0.coords t 1).val = t.val / 8 % 8 ∧ (grid0.coords t 2).val = t.val % 8
    ∧ win0_0.index t (0 : Fin 3) = t.val / 64 ∧ win0_0.index t (1 : Fin 3) = 0 ∧ win0_0.index t (2 : Fin 3) = 0
    ∧ win0_1.index t (0 : Fin 3) = t.val / 64 ∧ win0_1.index t (1 : Fin 3) = 0 ∧ win0_1.index t (2 : Fin 3) = 0
    ∧ win0_2.index t (0 : Fin 3) = t.val / 64 ∧ win0_2.index t (1 : Fin 3) = 0 ∧ win0_2.index t (2 : Fin 3) = 0 :=
  (by decide +kernel : ∀ t : Fin grid0.N, _)

theorem batch_lt (t : Fin cfg0.N) : t.val / 64 % 4 < 4 := Nat.mod_lt _ (by decide)

/-- The staged prediction block at `t` is batch `t / 64` of the normalized prediction array. -/
theorem zpBlk_apply (c : Dev nD) (t : Fin cfg0.N) (k : Fin 4) (n : Fin 4096) :
    zpBlk m c t (ix3 0 k n) = zp m c ⟨t.val / 64 % 4, batch_lt t⟩ k n := by
  have hN : t.val < 256 := lt_of_lt_of_eq t.isLt (show cfg0.N = 256 from N_0)
  obtain ⟨-, -, e0, e1, e2, -⟩ := point_facts t
  unfold zpBlk iblk zp zpArr
  rw [View.read_apply]
  show V m c main_v9 (((cfg0.win 0).blk t).view.emb (ix3 0 k n)) = V m c main_v9 _
  refine congrArg (V m c main_v9) ?_
  funext a; apply Fin.ext
  match a with
  | ⟨0, _⟩ => show win0_0.index t (0 : Fin 3) * 1 + 1 * 0 = t.val / 64 % 4; omega
  | ⟨1, _⟩ => show win0_0.index t (1 : Fin 3) * 4 + 1 * k.val = k.val; omega
  | ⟨2, _⟩ => show win0_0.index t (2 : Fin 3) * 4096 + 1 * n.val = n.val; omega

/-- The staged source block at `t` is batch `t / 64` of the normalized source array. -/
theorem zsBlk_apply (c : Dev nD) (t : Fin cfg0.N) (k : Fin 4) (n : Fin 4096) :
    zsBlk m c t (ix3 0 k n) = zs m c ⟨t.val / 64 % 4, batch_lt t⟩ k n := by
  have hN : t.val < 256 := lt_of_lt_of_eq t.isLt (show cfg0.N = 256 from N_0)
  obtain ⟨-, -, -, -, -, e0, e1, e2, -⟩ := point_facts t
  unfold zsBlk iblk zs zsArr
  rw [View.read_apply]
  show V m c main_v17 (((cfg0.win 1).blk t).view.emb (ix3 0 k n)) = V m c main_v17 _
  refine congrArg (V m c main_v17) ?_
  funext a; apply Fin.ext
  match a with
  | ⟨0, _⟩ => show win0_1.index t (0 : Fin 3) * 1 + 1 * 0 = t.val / 64 % 4; omega
  | ⟨1, _⟩ => show win0_1.index t (1 : Fin 3) * 4 + 1 * k.val = k.val; omega
  | ⟨2, _⟩ => show win0_1.index t (2 : Fin 3) * 4096 + 1 * n.val = n.val; omega

/-! ## The strips a point loads -/

/-- The row strip at a point reads columns `512 · i₁ + r` of the staged block. -/
theorem rowStrip_apply (i : grid0.Coords) (x : FVec Ideal S1x4x4096 .f32) (k : Fin 4) (r : Fin 512) (p : Fin 4096)
    (hp : p.val = 512 * (i 1).val + r.val) : rowStrip (F := Ideal) i x (ix3 0 k r) = x (ix3 0 k p) := by
  show x ((Rect.unit (s := S1x4x4096) (k0_off1 i) S1x4x512.size (k0_off1_inb i)).idx (ix3 0 k r)) = _
  refine congrArg x ?_
  have e := k0_off1_eq i
  funext a; apply Fin.ext
  match a with
  | ⟨0, _⟩ => show k0_off1 i 0 + 1 * 0 = 0; rw [e]; rfl
  | ⟨1, _⟩ => show k0_off1 i 1 + 1 * k.val = k.val; rw [e]; show 0 + 1 * k.val = k.val; omega
  | ⟨2, _⟩ => show k0_off1 i 2 + 1 * r.val = p.val; rw [e, hp]; show 512 * (i 1).val + 1 * r.val = _; omega

/-- The column strip reads columns `512 · i₂ + l`. -/
theorem colStrip_apply (i : grid0.Coords) (x : FVec Ideal S1x4x4096 .f32) (k : Fin 4) (l : Fin 512) (p : Fin 4096)
    (hp : p.val = 512 * (i 2).val + l.val) : colStrip (F := Ideal) i x (ix3 0 k l) = x (ix3 0 k p) := by
  show x ((Rect.unit (s := S1x4x4096) (k0_off2 i) S1x4x512.size (k0_off2_inb i)).idx (ix3 0 k l)) = _
  refine congrArg x ?_
  have e := k0_off2_eq i
  funext a; apply Fin.ext
  match a with
  | ⟨0, _⟩ => show k0_off2 i 0 + 1 * 0 = 0; rw [e]; rfl
  | ⟨1, _⟩ => show k0_off2 i 1 + 1 * k.val = k.val; rw [e]; show 0 + 1 * k.val = k.val; omega
  | ⟨2, _⟩ => show k0_off2 i 2 + 1 * l.val = p.val; rw [e, hp]; show 512 * (i 2).val + 1 * l.val = _; omega

/-! ## What one point adds -/

/-- The body's payload at point `t`, over any running value: that value plus the point's tile sum. -/
theorem point_value (c : Dev nD) (t : Fin cfg0.N) (acc : FVec Ideal S1x1x1 .f32) (y : S1x1x1.Idx) :
    k0_pay2 (F := Ideal) (rowStrip (F := Ideal) (grid0.coords t) (zpBlk m c t)) (colStrip (F := Ideal) (grid0.coords t) (zpBlk m c t))
        (rowStrip (F := Ideal) (grid0.coords t) (zsBlk m c t)) (colStrip (F := Ideal) (grid0.coords t) (zsBlk m c t)) acc y
      = acc y + step (zp m c) (zs m c) t.val := by
  obtain ⟨c1, c2, -⟩ := point_facts t
  refine (tile_payload _ _ _ _ acc y).trans (congrArg (acc y + ·) ?_)
  unfold step tile gdiff
  refine Finset.sum_congr rfl fun r _ => Finset.sum_congr rfl fun l _ => ?_
  have hu : ∀ k : Fin 4, rowStrip (F := Ideal) (grid0.coords t) (zpBlk m c t) (ix3 0 k r)
      = zp m c ⟨t.val / 64 % 4, batch_lt t⟩ k ⟨512 * (t.val / 8 % 8) + r.val, block_pos_lt (A := 8) (Nat.mod_lt _ (by decide)) r.isLt⟩ := fun k =>
    (rowStrip_apply (grid0.coords t) (zpBlk m c t) k r _ (by rw [c1])).trans (zpBlk_apply m c t k _)
  have hw : ∀ k : Fin 4, colStrip (F := Ideal) (grid0.coords t) (zpBlk m c t) (ix3 0 k l)
      = zp m c ⟨t.val / 64 % 4, batch_lt t⟩ k ⟨512 * (t.val % 8) + l.val, block_pos_lt (A := 8) (Nat.mod_lt _ (by decide)) l.isLt⟩ := fun k =>
    (colStrip_apply (grid0.coords t) (zpBlk m c t) k l _ (by rw [c2])).trans (zpBlk_apply m c t k _)
  have hus : ∀ k : Fin 4, rowStrip (F := Ideal) (grid0.coords t) (zsBlk m c t) (ix3 0 k r)
      = zs m c ⟨t.val / 64 % 4, batch_lt t⟩ k ⟨512 * (t.val / 8 % 8) + r.val, block_pos_lt (A := 8) (Nat.mod_lt _ (by decide)) r.isLt⟩ := fun k =>
    (rowStrip_apply (grid0.coords t) (zsBlk m c t) k r _ (by rw [c1])).trans (zsBlk_apply m c t k _)
  have hws : ∀ k : Fin 4, colStrip (F := Ideal) (grid0.coords t) (zsBlk m c t) (ix3 0 k l)
      = zs m c ⟨t.val / 64 % 4, batch_lt t⟩ k ⟨512 * (t.val % 8) + l.val, block_pos_lt (A := 8) (Nat.mod_lt _ (by decide)) l.isLt⟩ := fun k =>
    (colStrip_apply (grid0.coords t) (zsBlk m c t) k l _ (by rw [c2])).trans (zsBlk_apply m c t k _)
  simp only [hu, hw, hus, hws]

/-- The zero block the first tile of a batch starts from. -/
theorem zero_block (y : S1x1x1.Idx) : k0_pay1 (F := Ideal) y = 0 := Ideal.ofBits_zero_f32

/-- At the first point of a batch the block ends at that point's tile sum; -/
theorem at_first (c : Dev nD) (t : Fin cfg0.N) (h0 : t.val % 64 = 0) (y : S1x1x1.Idx) :
    outsAt0 m c t.val t.isLt y = step (zp m c) (zs m c) t.val := by
  rw [outsAt0_A m c t h0]
  refine (congrFun (first_tile (F := Ideal) c (grid0.coords t) (ms0_0 t) (hs0_0 t) (ms0_1 t) (hs0_1 t) (ms0_2 t) (hs0_2 t)
    ((hcond0_0 t).mpr h0) (zpBlk m c t) (zsBlk m c t)) y).trans ?_
  rw [point_value m c t (k0_pay1 (F := Ideal)) y, zero_block, zero_add]

/-- at every other point, at what the point before left plus that point's tile sum. -/
theorem at_later (c : Dev nD) (t : Fin cfg0.N) (h0 : ¬t.val % 64 = 0) (y : S1x1x1.Idx) :
    outsAt0 m c t.val t.isLt y
      = outsAt0 m c (t.val - 1) (Nat.lt_of_le_of_lt (Nat.sub_le _ _) t.isLt) y + step (zp m c) (zs m c) t.val := by
  rw [outsAt0_B m c t h0]
  refine (congrFun (later_tile (F := Ideal) c (grid0.coords t) (ms0_0 t) (hs0_0 t) (ms0_1 t) (hs0_1 t) (ms0_2 t) (hs0_2 t)
    (fun h => h0 ((hcond0_0 t).mp h)) (zpBlk m c t) (zsBlk m c t)
    (outsAt0 m c (t.val - 1) (Nat.lt_of_le_of_lt (Nat.sub_le _ _) t.isLt))) y).trans ?_
  exact point_value m c t _ y

/-- So after point `n` the block holds the sum of the steps of `n`'s batch up to `n`: by induction on the point. -/
theorem running (c : Dev nD) : ∀ (n : ℕ) (h : n < cfg0.N) (y : S1x1x1.Idx),
    outsAt0 m c n h y = ∑ s ∈ Finset.range (n % 64 + 1), step (zp m c) (zs m c) (n - n % 64 + s)
  | 0, h, y => by
    rw [at_first m c ⟨0, h⟩ rfl y]
    simp
  | n + 1, h, y => by
    by_cases h0 : (n + 1) % 64 = 0
    · rw [at_first m c ⟨n + 1, h⟩ h0 y, h0]
      simp
    · rw [at_later m c ⟨n + 1, h⟩ h0 y]
      show outsAt0 m c n _ y + _ = _
      rw [running c n (Nat.lt_of_succ_lt h) y]
      have e1 : (n + 1) % 64 = n % 64 + 1 := by omega
      have e2 : n + 1 - (n + 1) % 64 = n - n % 64 := by omega
      have e3 : n + 1 = n - n % 64 + (n % 64 + 1) := by omega
      rw [e2, e1, Finset.sum_range_succ _ (n % 64 + 1)]
      show _ + step (zp m c) (zs m c) (n + 1) = _
      rw [← e3]

end Cert.KernelIdeal.GramValue

end
-- ==== Proof.KernelResult.lean ====
/-
  The array the region leaves, and the program's result.

  The output window's block index moves only with the batch, and its block is written back after the last tile of
  each batch (points ≡ 63 mod 64), when it holds the sum of that batch's 64 steps. So entry `b` of the 4 × 1 × 1 array
  ends at that sum, and the host lines after the region add the four entries to zero and divide by 2²⁶.
-/
import proofs.«106116_j5145370820963_1_alg».proof.Proof.TileRunning

noncomputable section

open scoped BigOperators
open Idealize.ShloMosaic Idealize.ShloMosaic.TcCoe Idealize.SL.Sem Idealize.ShloMosaic.ValueIdx
open Idealize.ShloMosaic.Pipeline (Dat)

namespace Cert.KernelIdeal.GramValue

open Cert.KernelIdeal Cert.KernelIdeal.Gen Cert.GramTiles

variable (m : (ℓ : Loc nD τ sig) → Buf (Elt Ideal) ℓ) (ρ : Dev nD → PrngReg)

/-- Entry `b` of the region's result: the sum of the 64 steps of batch `b`. -/
def batchSums (c : Dev nD) : FVec Ideal S4x1x1 .f32 :=
  fun i => ∑ s ∈ Finset.range 64, step (zp m c) (zs m c) (64 * (i 0).val + s)

/-- What a write-back writes is the batch's entry of `batchSums`. -/
theorem flushed_eq (c : Dev nD) (t : Fin cfg0.N) (hf : (cfg0.win 2).flush t = true) :
    (dats m 0 c).flushed 2 t = ((cfg0.win 2).blk t).view.read (Elt Ideal) (batchSums m c) := by
  have hN : t.val < 256 := lt_of_lt_of_eq t.isLt (show cfg0.N = 256 from N_0)
  have h63 : t.val % 64 = 63 := (flush0_2 t).mp hf
  obtain ⟨-, -, -, -, -, -, -, -, e0, -, -⟩ := point_facts t
  show (cfg0.win 2).cut (grid0.coords t) ((dats m 0 c).after 2 t) = _
  rw [after0_2]
  funext y
  rw [View.read_apply]
  show outsAt0 m c t.val t.isLt _ = batchSums m c (((cfg0.win 2).blk t).view.emb y)
  rw [running m c t.val t.isLt _]
  unfold batchSums
  have hy : (y 0).val < 1 := (y 0).isLt
  have hb : ((((cfg0.win 2).blk t).view.emb y) 0).val = t.val / 64 := by
    show win0_2.index t (0 : Fin 3) * 1 + 1 * (y 0).val = _
    omega
  have hs : t.val - t.val % 64 = 64 * (t.val / 64) := by omega
  rw [hb, hs, h63]

/-- Every entry of the array is under the block written back after its batch's last tile. -/
theorem covered (i : S4x1x1.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 1 := (i 2).isLt
  have hN : cfg0.N = 256 := N_0
  have ht : 64 * (i 0).val + 63 < cfg0.N := by rw [hN]; omega
  obtain ⟨-, -, -, -, -, -, -, -, e0, e1, e2⟩ := point_facts ⟨64 * (i 0).val + 63, ht⟩
  refine ⟨⟨64 * (i 0).val + 63, ht⟩, (flush0_2 _).mpr (by show (64 * (i 0).val + 63) % 64 = 63; omega), ?_⟩
  show i ∈ ((View.whole main_v18).slice (win0_2.rect ⟨64 * (i 0).val + 63, ht⟩)).set
  rw [View.set_slice_whole, Rect.mem_set_unit]
  intro a
  match a with
  | ⟨0, _⟩ =>
    show win0_2.index ⟨64 * (i 0).val + 63, ht⟩ (0 : Fin 3) * 1 ≤ (i 0).val ∧ (i 0).val < win0_2.index ⟨64 * (i 0).val + 63, ht⟩ (0 : Fin 3) * 1 + 1
    rw [e0]; dsimp only; omega
  | ⟨1, _⟩ =>
    show win0_2.index ⟨64 * (i 0).val + 63, ht⟩ (1 : Fin 3) * 1 ≤ (i 1).val ∧ (i 1).val < win0_2.index ⟨64 * (i 0).val + 63, ht⟩ (1 : Fin 3) * 1 + 1
    rw [e1]; omega
  | ⟨2, _⟩ =>
    show win0_2.index ⟨64 * (i 0).val + 63, ht⟩ (2 : Fin 3) * 1 ≤ (i 2).val ∧ (i 2).val < win0_2.index ⟨64 * (i 0).val + 63, ht⟩ (2 : Fin 3) * 1 + 1
    rw [e2]; omega

/-- So the region's result array ends at the batch sums. -/
theorem region_result (c : Dev nD) : (dats m 0 c).arrAt 2 cfg0.N = batchSums m c :=
  (dats m 0 c).arrAt_eq_of_cover 2 (batchSums m c) (flushed_eq m c) covered

/-- The host lines after the region: the entries added to zero, the total divided by 2²⁶ (the literal's word). -/
def lossOf (g : FVec Ideal S4x1x1 .f32) : FVec Ideal S_ .f32 :=
  Host.divf (F := Ideal) (Host.reduceAdd (F := Ideal) g (constant (F := Ideal) S_ .f32 0x00000000#32) reducesTo_S4x1x1_S_d0_1_2 h_S_)
    (constant (F := Ideal) S_ .f32 0x4C800000#32)

/-- The program's result, as the frame run states it, is `lossOf` of the batch sums. -/
theorem tail_eq (c : Dev nD) :
    Pipeline.afterTail₀ cfgs (dats m) 0 (V0 m) [hostOps1] c main_v20 = lossOf (batchSums m c) := by
  unfold Pipeline.afterTail₀
  show StableHlo.after hostOps1 _ (Proc.devRef .tc main_v20) = _
  after_results
  rw [Pipeline.withArrays_arr spec0 launch0.win.arr_inj c _ _ 2, region_result]
  rfl

/-- The run, read: the result at `lossOf` of the batch sums, the arguments unchanged. -/
theorem run : θ_run defs (onTc (τ := τ) (main (F := Ideal))) ⟨m, fun _ => 0, ρ⟩ fun r => ∀ c : Dev nD,
      r.2.mem ((c : Thread nD τ).loc main_v20) = lossOf (batchSums m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The result read exactly: the total of the Gram differences over every batch and position pair, over 2²⁶. -/
theorem loss_value (c : Dev nD) (i : S_.Idx) :
    lossOf (batchSums m c) i
      = Ideal.div (Ideal.ofBits .f32 0x00000000#32 + ∑ b : Fin 4, ∑ n : Fin 4096, ∑ p : Fin 4096, gdiff (zp m c) (zs m c) b n p)
          (Ideal.ofBits .f32 0x4C800000#32) := by
  unfold lossOf
  show Ideal.div (Ideal.hostReduceAdd reducesTo_S4x1x1_S_d0_1_2 (batchSums m c) _ i) _ = _
  rw [Ideal.hostReduceAdd_total reducesTo_S4x1x1_S_d0_1_2 (fun b => b.elim0), sum_idx3]
  refine congrArg₂ Ideal.div (congrArg₂ (· + ·) rfl (Finset.sum_congr rfl fun b _ => ?_)) rfl
  rw [Fin.sum_univ_one, Fin.sum_univ_one]
  exact sum_steps (zp m c) (zs m c) b

end Cert.KernelIdeal.GramValue

end
-- ==== Proof.RefValue.lean ====
/-
  The reference's result, read exactly.

  The reference normalizes both inputs along the channel axis, forms the two full 4 × 4096 × 4096 Gram arrays by
  contracting the channels, squares their difference, adds every entry to zero and divides by 2²⁶. Entry `(b, n, p)`
  of the squared difference is `GramTiles.gdiff` of the normalized arrays, so the result is the total of `gdiff`
  over every batch and position pair, over 2²⁶.
-/
import proofs.«106116_j5145370820963_1_alg».proof.Proof.Gen.ReferenceIdeal.Read
import proofs.«106116_j5145370820963_1_alg».proof.Proof.GramTiles

noncomputable section

open scoped BigOperators
open Idealize.ShloMosaic Idealize.ShloMosaic.ValueIdx

namespace Cert.ReferenceIdeal.GramRef

open Cert.ReferenceIdeal Cert.ReferenceIdeal.Gen Cert.ReferenceIdeal.Read Cert.GramTiles

variable (x0 x1 : (⟨S4x4x64x64, .f32⟩ : BufTy).Contents (Elt Ideal))

/-- The normalized prediction and source arrays by coordinates (batch, channel, position). -/
def zp : Fin 4 → Fin 4 → Fin 4096 → EReal := fun b k n => val_main_v5 (F := Ideal) x0 (ix3 b k n)
def zs : Fin 4 → Fin 4 → Fin 4096 → EReal := fun b k n => val_main_v11 (F := Ideal) x1 (ix3 b k n)

/-- Entry `(b, n, p)` of the squared difference of the two Gram arrays. -/
theorem sq_entry (b : Fin 4) (n p : Fin 4096) :
    val_main_v15 (F := Ideal) x0 x1 (ix3 b n p) = gdiff (zp x0) (zs x1) b n p := by
  have el : ∀ k : Fin 4, lidx_main_v12 (ix3 b n p) k = ix3 b k n := fun k => funext fun a => by
    match a with | ⟨0, _⟩ => rfl | ⟨1, _⟩ => rfl | ⟨2, _⟩ => rfl
  have er : ∀ k : Fin 4, ridx_main_v12 (ix3 b n p) k = ix3 b k p := fun k => funext fun a => by
    match a with | ⟨0, _⟩ => rfl | ⟨1, _⟩ => rfl | ⟨2, _⟩ => rfl
  have el' : ∀ k : Fin 4, lidx_main_v13 (ix3 b n p) k = ix3 b k n := fun k => funext fun a => by
    match a with | ⟨0, _⟩ => rfl | ⟨1, _⟩ => rfl | ⟨2, _⟩ => rfl
  have er' : ∀ k : Fin 4, ridx_main_v13 (ix3 b n p) k = ix3 b k p := fun k => funext fun a => by
    match a with | ⟨0, _⟩ => rfl | ⟨1, _⟩ => rfl | ⟨2, _⟩ => rfl
  rw [val_main_v15_apply, val_main_v14_apply, val_main_v12_apply, val_main_v13_apply]
  simp only [el, er, el', er', Ideal.mulf_def, Ideal.subf_def]
  rfl

/-- The reference's result: the total of the Gram differences added to zero, over 2²⁶. -/
theorem loss_value (i : S_.Idx) :
    val_main_v17 (F := Ideal) x0 x1 i
      = Ideal.div (Ideal.ofBits .f32 0x00000000#32 + ∑ b : Fin 4, ∑ n : Fin 4096, ∑ p : Fin 4096, gdiff (zp x0) (zs x1) b n p)
          (Ideal.ofBits .f32 0x4C800000#32) := by
  rw [val_main_v17_apply, val_main_v16_apply, sum_idx3]
  simp only [sq_entry]
  rfl

end Cert.ReferenceIdeal.GramRef

end
-- ==== Proof.lean ====
/-
  The kernel: the mean squared Frobenius distance between the Gram matrices of two channel-normalized feature maps,
  computed without ever holding a Gram matrix. After the host has reshaped each input to 4 × 4 × 4096 and divided
  each position's channel vector by max(its norm, ε), a grid of 4 × 8 × 8 points walks, for each batch, the 8 × 8 board
  of 512 × 512 tiles of the 4096 × 4096 position pairs; at a tile it contracts the four channels of two 512-column
  strips of each array into the two Gram tiles, squares their difference, and adds the tile's sum into a
  one-entry output block that is reset at a batch's first tile and written back after its last. The host then adds
  the four batch sums to zero and divides by 4 · 4096².

  The reference forms both full Gram arrays with one batched contraction each, squares the difference, sums every
  entry to zero and divides by the same constant.

  Over the extended reals both are `(0 + ∑_b ∑_n ∑_p (∑_k zp b k n · zp b k p − ∑_k zs b k n · zs b k p)²) / 2²⁶` of
  the same normalized arrays `zp`, `zs`: the normalization is the same sequence of operations on both sides, the
  tile sums regroup one commutative, associative sum (Proof/GramTiles.lean), and no law that needs finiteness
  is used, so the precondition is never opened. The ideal pass rewrote nothing, so `preserves` is `True`.

  Proof/TilePayload.lean reads the body's arithmetic at an index; Proof/TilePieces.lean what each case of the body
  leaves in the output block; Proof/TileRunning.lean the block's running value by induction on the point;
  Proof/KernelResult.lean the array the region leaves and the program's result; Proof/RefValue.lean the reference's.
-/
import proofs.«106116_j5145370820963_1_alg».proof.Defs
import proofs.«106116_j5145370820963_1_alg».proof.Proof.Gen.Kernel
import proofs.«106116_j5145370820963_1_alg».proof.Proof.Gen.Kernel.Skeleton
import proofs.«106116_j5145370820963_1_alg».proof.Proof.Gen.Kernel.Launch
import proofs.«106116_j5145370820963_1_alg».proof.Proof.Gen.Kernel.Points
import proofs.«106116_j5145370820963_1_alg».proof.Proof.Gen.Kernel.Frame
import proofs.«106116_j5145370820963_1_alg».proof.Proof.Gen.KernelIdeal
import proofs.«106116_j5145370820963_1_alg».proof.Proof.Gen.KernelIdeal.Skeleton
import proofs.«106116_j5145370820963_1_alg».proof.Proof.Gen.KernelIdeal.Launch
import proofs.«106116_j5145370820963_1_alg».proof.Proof.Gen.KernelIdeal.Points
import proofs.«106116_j5145370820963_1_alg».proof.Proof.Gen.KernelIdeal.Frame
import proofs.«106116_j5145370820963_1_alg».proof.Proof.Gen.ReferenceIdeal
import proofs.«106116_j5145370820963_1_alg».proof.Proof.Gen.Pre_finite_inputs
import proofs.«106116_j5145370820963_1_alg».proof.Proof.Gen.ReferenceIdeal.Run
import proofs.«106116_j5145370820963_1_alg».proof.Proof.Gen.ReferenceIdeal.Read
import proofs.«106116_j5145370820963_1_alg».proof.Proof.KernelResult
import proofs.«106116_j5145370820963_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## Both programs normalize alike -/

section Normalized

variable (m : (ℓ : Loc Cert.KernelIdeal.nD Cert.KernelIdeal.τ Cert.KernelIdeal.sig) → Buf (Elt Ideal) ℓ)

/-- The normalized prediction array the region finds is the reference's normalized prediction array of the same
    input: the host lines before the region are the reference's own lines. -/
theorem zp_eq (c : Dev Cert.KernelIdeal.nD) :
    Cert.KernelIdeal.GramValue.zp m c
      = Cert.ReferenceIdeal.GramRef.zp (m ((c.tc : Thread Cert.KernelIdeal.nD Cert.KernelIdeal.τ).loc Cert.KernelIdeal.main_arg0)) := by
  funext b k n
  unfold Cert.KernelIdeal.GramValue.zp Cert.ReferenceIdeal.GramRef.zp Cert.KernelIdeal.GramValue.zpArr
  refine congrFun ?_ (ix3 b k n)
  show StableHlo.after Cert.KernelIdeal.Gen.hostOps0 (fun b => m (c, b)) (Proc.devRef .tc Cert.KernelIdeal.main_v9) = _
  after_results
  rfl

/-- Likewise the normalized source array. -/
theorem zs_eq (c : Dev Cert.KernelIdeal.nD) :
    Cert.KernelIdeal.GramValue.zs m c
      = Cert.ReferenceIdeal.GramRef.zs (m ((c.tc : Thread Cert.KernelIdeal.nD Cert.KernelIdeal.τ).loc Cert.KernelIdeal.main_arg1)) := by
  funext b k n
  unfold Cert.KernelIdeal.GramValue.zs Cert.ReferenceIdeal.GramRef.zs Cert.KernelIdeal.GramValue.zsArr
  refine congrFun ?_ (ix3 b k n)
  show StableHlo.after Cert.KernelIdeal.Gen.hostOps0 (fun b => m (c, b)) (Proc.devRef .tc Cert.KernelIdeal.main_v17) = _
  after_results
  rfl

end Normalized

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both results are the same total of squared Gram differences of the same normalized arrays, over 2²⁶. -/
theorem algebraic : Cert.algebraic_KernelIdeal_ReferenceIdeal := by
  intro m ρ m' ρ' _ hagree
  refine ⟨fun c => Cert.KernelIdeal.GramValue.lossOf (Cert.KernelIdeal.GramValue.batchSums m c),
    Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  funext i
  show _ = Cert.KernelIdeal.GramValue.lossOf (Cert.KernelIdeal.GramValue.batchSums m c) i
  rw [Cert.ReferenceIdeal.GramRef.loss_value, Cert.KernelIdeal.GramValue.loss_value, zp_eq, zs_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
